-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x3 : Shape := ⟨2, ![1600000, 3]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : IVec S1600000x3 32) (main_arg1 : FVec F S100000x64 .f32) (main_arg2 : FVec F S64x64 .f32) (main_arg3 : FVec F S64 .f32) (main_arg4 : FVec F S1x64 .f32) (main_arg5 : FVec F S1 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg5 main_v13 main_v16
-- ==== Kernel.lean ====
abbrev S1600000x3 : Shape := ⟨2, ![1600000, 3]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1600000x1 : Shape := ⟨2, ![1600000, 1]⟩
abbrev S1600000 : Shape := ⟨1, ![1600000]⟩
abbrev S_ : Shape := ⟨0, ![]⟩
abbrev S1600000x64 : Shape := ⟨2, ![1600000, 64]⟩
abbrev S1x1 : Shape := ⟨2, ![1, 1]⟩
abbrev S1600000x65 : Shape := ⟨2, ![1600000, 65]⟩
abbrev S4000x64 : Shape := ⟨2, ![4000, 64]⟩
abbrev S4000x65 : Shape := ⟨2, ![4000, 65]⟩
abbrev S4000 : Shape := ⟨1, ![4000]⟩
abbrev S4000x1 : Shape := ⟨2, ![4000, 1]⟩
abbrev S100000x1 : Shape := ⟨2, ![100000, 1]⟩

abbrev nBuf : Space → Nat
  | .hbm => 43
  | .vmem => 8
  | .smem => 0
  | _ => 0

abbrev bufTy : (tb : Table) → Fin (tcTables nBuf tb) → BufTy
  | .hbm, ⟨0, _⟩ => ⟨S1600000x3, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1600000x1, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S64x64, .f32⟩
  | .hbm, ⟨18, _⟩ => ⟨S1x64, .f32⟩
  | .hbm, ⟨19, _⟩ => ⟨S1x1, .f32⟩
  | .hbm, ⟨20, _⟩ => ⟨S1600000x65, .f32⟩
  | .hbm, ⟨21, _⟩ => ⟨S1600000x1, .f32⟩
  | .hbm, ⟨22, _⟩ => ⟨S1600000x64, .f32⟩
  | .hbm, ⟨23, _⟩ => ⟨S_, .f32⟩
  | .hbm, ⟨24, _⟩ => ⟨S100000x1, .f32⟩
  | .hbm, ⟨25, _⟩ => ⟨S1600000x1, .i32⟩
  | .hbm, ⟨26, _⟩ => ⟨S100000x1, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S100000x1, .f32⟩
  | .hbm, ⟨33, _⟩ => ⟨S100000x1, .i1⟩
  | .hbm, ⟨34, _⟩ => ⟨S_, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S4000x65, .f32⟩
  | .local _ .vmem, ⟨7, _⟩ => ⟨S4000x65, .f32⟩
  | _, _ => ⟨S1600000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x65 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1600000x3_S1600000x1_0_0 : S1600000x3.Slices ![0, 0] S1600000x1
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x64_S64x64_1_0 : S64x64.Transposes [1, 0] S64x64
  shapeCasts_S64_S1x64 : S64.ShapeCasts S1x64
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  concatenates_S4000x1_S4000x64_S4000x65_d1 : Shape.Concatenates [S4000x1, S4000x64] S4000x65 1
  inb_S4000x65_S4000x65_0_0 : ∀ a, (![0, 0] : Fin 2 → Nat) a + S4000x65.size a ≤ S4000x65.size a
  h_S4000x65 : 0 < S4000x65.numel
  slices_S1600000x65_S1600000x1_0_0 : S1600000x65.Slices ![0, 0] S1600000x1
  slices_S1600000x65_S1600000x64_0_1 : S1600000x65.Slices ![0, 1] S1600000x64
  bcast_S_S100000x1 : S_.BroadcastsInDim S100000x1 (![] : Fin 0 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S4000x64_S64x64_S4000x64_1_0_0_1_n_n_wf : DotDims.WF S4000x64 S64x64 S4000x64 [1] [0] [0] [1] [] []
  scatter_S100000x1_S1600000x1_S1600000x1_1_0_0_1_wf : ScatterDims.WF S100000x1 S1600000x1 S1600000x1 [1] [0] [0] 1
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x65.size a ≤ S1600000x65.size a
  hwx0_5 : ∀ i : grid0.Coords, EltTy.bits .f32 = 32 ∨ (Rect.block (s := S1600000x65) S4000x65.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v8) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4000x65.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1600000x3 : Shape := ⟨2, ![1600000, 3]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1600000x1 : Shape := ⟨2, ![1600000, 1]⟩
abbrev S1600000 : Shape := ⟨1, ![1600000]⟩
abbrev S_ : Shape := ⟨0, ![]⟩
abbrev S1600000x64 : Shape := ⟨2, ![1600000, 64]⟩
abbrev S64x1 : Shape := ⟨2, ![64, 1]⟩
abbrev S1x1 : Shape := ⟨2, ![1, 1]⟩
abbrev S100000x1 : Shape := ⟨2, ![100000, 1]⟩

abbrev nBuf : Space → Nat
  | .hbm => 74
  | .vmem => 0
  | .smem => 0
  | _ => 0

abbrev bufTy : (tb : Table) → Fin (tcTables nBuf tb) → BufTy
  | .hbm, ⟨0, _⟩ => ⟨S1600000x3, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1600000x1, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S1600000, .f32⟩
  | .hbm, ⟨20, _⟩ => ⟨S1600000x1, .f32⟩
  | .hbm, ⟨21, _⟩ => ⟨S1600000x1, .f32⟩
  | .hbm, ⟨22, _⟩ => ⟨S_, .f32⟩
  | .hbm, ⟨23, _⟩ => ⟨S1600000x1, .f32⟩
  | .hbm, ⟨24, _⟩ => ⟨S1600000x1, .f32⟩
  | .hbm, ⟨25, _⟩ => ⟨S_, .f32⟩
  | .hbm, ⟨26, _⟩ => ⟨S1600000x1, .f32⟩
  | .hbm, ⟨27, _⟩ => ⟨S1600000x1, .f32⟩
  | .hbm, ⟨28, _⟩ => ⟨S_, .f32⟩
  | .hbm, ⟨29, _⟩ => ⟨S1600000x1, .f32⟩
  | .hbm, ⟨30, _⟩ => ⟨S1600000x1, .f32⟩
  | .hbm, ⟨31, _⟩ => ⟨S1600000x64, .f32⟩
  | .hbm, ⟨32, _⟩ => ⟨S1600000x64, .f32⟩
  | .hbm, ⟨33, _⟩ => ⟨S64x64, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S64x1, .f32⟩
  | .hbm, ⟨39, _⟩ => ⟨S1600000x1, .f32⟩
  | .hbm, ⟨40, _⟩ => ⟨S1x1, .f32⟩
  | .hbm, ⟨41, _⟩ => ⟨S1600000x1, .f32⟩
  | .hbm, ⟨42, _⟩ => ⟨S1600000x1, .f32⟩
  | .hbm, ⟨43, _⟩ => ⟨S_, .f32⟩
  | .hbm, ⟨44, _⟩ => ⟨S1600000x1, .f32⟩
  | .hbm, ⟨45, _⟩ => ⟨S1600000x1, .i1⟩
  | .hbm, ⟨46, _⟩ => ⟨S_, .f32⟩
  | .hbm, ⟨47, _⟩ => ⟨S1600000x1, .f32⟩
  | .hbm, ⟨48, _⟩ => ⟨S1600000x1, .f32⟩
  | .hbm, ⟨49, _⟩ => ⟨S1600000x1, .f32⟩
  | .hbm, ⟨50, _⟩ => ⟨S1600000x1, .f32⟩
  | .hbm, ⟨51, _⟩ => ⟨S1600000x1, .f32⟩
  | .hbm, ⟨52, _⟩ => ⟨S_, .f32⟩
  | .hbm, ⟨53, _⟩ => ⟨S100000x1, .f32⟩
  | .hbm, ⟨54, _⟩ => ⟨S1600000x1, .i32⟩
  | .hbm, ⟨55, _⟩ => ⟨S100000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S100000x1, .f32⟩
  | .hbm, ⟨64, _⟩ => ⟨S100000x1, .i1⟩
  | .hbm, ⟨65, _⟩ => ⟨S_, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | _, _ => ⟨S1600000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_call2_v0 : Ref sig .tc := ⟨.hbm, 66, rfl⟩
abbrev main_call2_v1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call3_cst : Ref sig .tc := ⟨.hbm, 71, rfl⟩
abbrev main_call3_v0 : Ref sig .tc := ⟨.hbm, 72, rfl⟩
abbrev main_v44 : Ref sig .tc := ⟨.hbm, 73, rfl⟩

abbrev nD : Nat := 1
abbrev τ : Topo := Topo.v7x

variable {F : FTy → Type} [FloatOps F]

class Facts₀ : Prop where
  slices_S1600000x3_S1600000x1_0_0 : S1600000x3.Slices ![0, 0] S1600000x1
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S_S1600000x1 : S_.BroadcastsInDim S1600000x1 (![] : Fin 0 → Fin S1600000x1.rank)
  bcast_S1600000x1_S1600000x64_0_1 : S1600000x1.BroadcastsInDim S1600000x64 (![0, 1] : Fin 2 → Fin S1600000x64.rank)
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  transposes_S1x64_S64x1_1_0 : S1x64.Transposes [1, 0] S64x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S100000x1 : S_.BroadcastsInDim S100000x1 (![] : Fin 0 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000x1_S1600000x1_S1600000x1_1_0_0_1_wf : ScatterDims.WF S100000x1 S1600000x1 S1600000x1 [1] [0] [0] 1
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RefTerm.lean ====
/-
  The reference program's computation, stage by stage, as functions of its six argument arrays at the ideal values:
  the edges' source nodes (column 0 of the triplets), the gathered embedding rows, the clipped rows' affine image `c`,
  the score `s`, the attention weight `e = exp (-leaky s)`, the message `e · c`, and the aggregation that both
  programs share (two scatter-sums over the source nodes, the guarded quotient, the rectifier).
-/
import proofs.«144017_j77704548319854_1_alg».proof.Proof.Gen.ReferenceIdeal
import Idealize.ShloMosaic.PureOps.Ideal

noncomputable section

namespace Cert.ReferenceIdeal.Term

open Cert.ReferenceIdeal Idealize.ShloMosaic
open Cert.ReferenceIdeal.Facts₀

/-- The edges' source nodes: column 0 of the triplets, as a vector. -/
def src (a0 : IVec S1600000x3 32) : IVec S1600000 32 :=
  shapeCast S1600000 (extractStridedSlice S1600000x1 ![0, 0] a0 slices_S1600000x3_S1600000x1_0_0) shapeCasts_S1600000x1_S1600000

/-- The row each edge gathers: its source node, a negative id counted from the end. -/
def rowIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The gathered embedding rows, one per edge. -/
def rows (a0 : IVec S1600000x3 32) (a1 : FVec Ideal S100000x64 .f32) :
    FVec Ideal S1600000x64 .f32 :=
  Host.gather gather_S100000x64_S1600000x1_S1600000x64_1_0_n_n_0_1_164 a1 (rowIdx (src a0))

/-- Each row's norm, a column. -/
def nrm (R : FVec Ideal S1600000x64 .f32) : FVec Ideal S1600000x1 .f32 :=
  Host.sqrt (broadcastInDim S1600000x1 ![0] bcast_S1600000_S1600000x1_0
    (Host.reduceAdd (mulf R R) (constant S_ .f32 0x00000000#32) reducesTo_S1600000x64_S1600000_d1 h_S_))

/-- Each row's clip factor, a column. -/
def scl (R : FVec Ideal S1600000x64 .f32) : FVec Ideal S1600000x1 .f32 :=
  minimumf (broadcastInDim S1600000x1 ![] bcast_S_S1600000x1 (constant S_ .f32 0x3F800000#32))
    (Host.divf (broadcastInDim S1600000x1 ![] bcast_S_S1600000x1 (constant S_ .f32 0x3F800000#32))
      (addf (nrm R) (broadcastInDim S1600000x1 ![] bcast_S_S1600000x1 (constant S_ .f32 0x33D6BF95#32))))

/-- The affine image of the clipped rows. -/
def lin (R : FVec Ideal S1600000x64 .f32) (a2 : FVec Ideal S64x64 .f32)
    (a3 : FVec Ideal S64 .f32) : FVec Ideal S1600000x64 .f32 :=
  addf (Host.dotGeneral dot_S1600000x64_S64x64_S1600000x64_1_0_0_1_n_n none
      (mulf R (broadcastInDim S1600000x64 ![0, 1] bcast_S1600000x1_S1600000x64_0_1 (scl R)))
      (transpose S64x64 [1, 0] a2 transposes_S64x64_S64x64_1_0))
    (broadcastInDim S1600000x64 ![0, 1] bcast_S1x64_S1600000x64_0_1 (broadcastInDim S1x64 ![1] bcast_S64_S1x64_1 a3))

/-- The edges' scores, a column. -/
def score (C : FVec Ideal S1600000x64 .f32) (a4 : FVec Ideal S1x64 .f32)
    (a5 : FVec Ideal S1 .f32) : FVec Ideal S1600000x1 .f32 :=
  addf (Host.dotGeneral dot_S1600000x64_S64x1_S1600000x1_1_0_0_1_n_n none C (transpose S64x1 [1, 0] a4 transposes_S1x64_S64x1_1_0))
    (broadcastInDim S1600000x1 ![0, 1] bcast_S1x1_S1600000x1_0_1 (broadcastInDim S1x1 ![1] bcast_S1_S1x1_1 a5))

/-- The edges' attention weights, a column: `exp (-leaky s)`. -/
def att (S : FVec Ideal S1600000x1 .f32) : FVec Ideal S1600000x1 .f32 :=
  Host.exp (Host.negf (select
    (cmpf .oge S (broadcastInDim S1600000x1 ![] bcast_S_S1600000x1 (constant S_ .f32 0x00000000#32)))
    S (mulf (broadcastInDim S1600000x1 ![] bcast_S_S1600000x1 (constant S_ .f32 0x3C23D70A#32)) S)))

/-- The edges' messages: the weight times the affine image. -/
def msg (E : FVec Ideal S1600000x1 .f32) (C : FVec Ideal S1600000x64 .f32) :
    FVec Ideal S1600000x64 .f32 :=
  mulf (broadcastInDim S1600000x64 ![0, 1] bcast_S1600000x1_S1600000x64_0_1 E) C

/-- The aggregation: per node the sum of its edges' weights and of their messages, the quotient of the two with an
    empty sum of weights replaced by a tiny constant, and the rectifier. -/
def agg (s : IVec S1600000 32) (E : FVec Ideal S1600000x1 .f32)
    (U : FVec Ideal S1600000x64 .f32) : FVec Ideal S100000x64 .f32 :=
  have ebs : FVec Ideal S100000x1 .f32 :=
    Host.scatterAdd scatter_S100000x1_S1600000x1_S1600000x1_1_0_0_1
      (broadcastInDim S100000x1 ![] bcast_S_S100000x1 (constant S_ .f32 0x00000000#32))
      (broadcastInDim S1600000x1 ![0] bcast_S1600000_S1600000x1_0 s) E
  have hs : FVec Ideal S100000x64 .f32 :=
    Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 s) U
  have den : FVec Ideal S100000x1 .f32 :=
    select (cmpf .oeq ebs (broadcastInDim S100000x1 ![] bcast_S_S100000x1 (constant S_ .f32 0x00000000#32)))
      (broadcastInDim S100000x1 ![] bcast_S_S100000x1 (id (constant S_ .f32 0x2B8CBCCC#32))) ebs
  maximumf (Host.divf hs (broadcastInDim S100000x64 ![0, 1] bcast_S100000x1_S100000x64_0_1 den))
    (broadcastInDim S100000x64 ![] bcast_S_S100000x64 (constant S_ .f32 0x00000000#32))

/-- The reference's result as a function of its arguments. -/
def out (a0 : IVec S1600000x3 32) (a1 : FVec Ideal S100000x64 .f32)
    (a2 : FVec Ideal S64x64 .f32) (a3 : FVec Ideal S64 .f32)
    (a4 : FVec Ideal S1x64 .f32) (a5 : FVec Ideal S1 .f32) :
    FVec Ideal S100000x64 .f32 :=
  agg (src a0) (att (score (lin (rows a0 a1) a2 a3) a4 a5))
    (msg (att (score (lin (rows a0 a1) a2 a3) a4 a5)) (lin (rows a0 a1) a2 a3))

end Cert.ReferenceIdeal.Term

end
-- ==== Proof.Glue.lean ====
/-
  A column and a block of `w` columns laid side by side into one array of `w + 1` columns, and the two
  slices that take them apart again.
-/
import Idealize.ShloMosaic.Lib.ValueIdx
import Idealize.ShloMosaic.Lib.Pipeline.Value

noncomputable section

namespace Cert.Glue

open Idealize.ShloMosaic Idealize.ShloMosaic.ValueIdx

variable {α : Type} {n w : Nat}

/-- Column 0 is `E`, column `j + 1` is column `j` of `U`. -/
def glue (E : (⟨2, ![n, 1]⟩ : Shape).Idx → α) (U : (⟨2, ![n, w]⟩ : Shape).Idx → α) : (⟨2, ![n, w + 1]⟩ : Shape).Idx → α :=
  fun i =>
    if h : (i 1).val = 0 then E (ix2 ⟨(i 0).val, idx2_lt0 i⟩ (0 : Fin 1))
    else U (ix2 ⟨(i 0).val, idx2_lt0 i⟩ ⟨(i 1).val - 1, by have := idx2_lt1 i; omega⟩)

theorem glue_zero (E : (⟨2, ![n, 1]⟩ : Shape).Idx → α) (U : (⟨2, ![n, w]⟩ : Shape).Idx → α) (r : Fin n) :
    glue E U (ix2 r (0 : Fin (w + 1))) = E (ix2 r (0 : Fin 1)) := by
  unfold glue
  exact dif_pos (show ((ix2 r (0 : Fin (w + 1)) : (⟨2, ![n, w + 1]⟩ : Shape).Idx) 1).val = 0 from rfl)

theorem glue_succ (E : (⟨2, ![n, 1]⟩ : Shape).Idx → α) (U : (⟨2, ![n, w]⟩ : Shape).Idx → α) (r : Fin n) (j : Fin w) :
    glue E U (ix2 r j.succ) = U (ix2 r j) := by
  unfold glue
  refine (dif_neg (show ¬ ((ix2 r j.succ : (⟨2, ![n, w + 1]⟩ : Shape).Idx) 1).val = 0 from by
    show ¬ (j.val + 1 = 0); omega)).trans ?_
  refine congrArg U ?_
  funext a; apply Fin.ext
  match a with
  | ⟨0, _⟩ => rfl
  | ⟨1, _⟩ => show j.val + 1 - 1 = j.val; omega

/-- The slice of column 0 gives `E` back. -/
theorem slice_zero (E : (⟨2, ![n, 1]⟩ : Shape).Idx → α) (U : (⟨2, ![n, w]⟩ : Shape).Idx → α)
    (h : (⟨2, ![n, w + 1]⟩ : Shape).Slices ![0, 0] ⟨2, ![n, 1]⟩) :
    extractStridedSlice ⟨2, ![n, 1]⟩ ![0, 0] (glue E U) h = E := by
  funext j
  have h1 : (j 1).val = 0 := by have := idx2_lt1 j; omega
  refine (extractStridedSlice_apply ![0, 0] (glue E U) h j (ix2 ⟨(j 0).val, idx2_lt0 j⟩ (0 : Fin (w + 1))) ?_).trans ?_
  · intro a
    match a with
    | ⟨0, _⟩ => show (j 0).val = 0 + (j 0).val; omega
    | ⟨1, _⟩ => show 0 = 0 + (j 1).val; omega
  · rw [glue_zero]
    refine congrArg E ?_
    funext a; apply Fin.ext
    match a with
    | ⟨0, _⟩ => rfl
    | ⟨1, _⟩ => exact h1.symm

/-- The slice of columns `1 … w` gives `U` back. -/
theorem slice_succ (E : (⟨2, ![n, 1]⟩ : Shape).Idx → α) (U : (⟨2, ![n, w]⟩ : Shape).Idx → α)
    (h : (⟨2, ![n, w + 1]⟩ : Shape).Slices ![0, 1] ⟨2, ![n, w]⟩) :
    extractStridedSlice ⟨2, ![n, w]⟩ ![0, 1] (glue E U) h = U := by
  funext j
  refine (extractStridedSlice_apply ![0, 1] (glue E U) h j
    (ix2 ⟨(j 0).val, idx2_lt0 j⟩ (⟨(j 1).val, idx2_lt1 j⟩ : Fin w).succ) ?_).trans ?_
  · intro a
    match a with
    | ⟨0, _⟩ => show (j 0).val = 0 + (j 0).val; omega
    | ⟨1, _⟩ => show (j 1).val + 1 = 1 + (j 1).val; omega
  · rw [glue_succ]
    refine congrArg U ?_
    funext a; apply Fin.ext
    match a with
    | ⟨0, _⟩ => rfl
    | ⟨1, _⟩ => rfl

end Cert.Glue

end
-- ==== Proof.KerHost.lean ====
/-
  What the kernel's program has computed on the host when its grid call starts, in the reference's words: the
  edges' source nodes, the gathered rows (the same two stages as the reference's, operation for operation), the
  transposed weight matrix, and the two biases reshaped to a row and to a single entry.
-/
import proofs.«144017_j77704548319854_1_alg».proof.Proof.Gen.KernelIdeal.Frame
import proofs.«144017_j77704548319854_1_alg».proof.Proof.RefTerm
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The source nodes are column 0 of the triplets. -/
theorem src_eq (c : Dev nD) :
    (V m c main_v1 : IVec S1600000 32) = Cert.ReferenceIdeal.Term.src (m ((c : Thread nD τ).loc main_arg0)) := by
  show StableHlo.after hostOps0 (fun b => m (c, b)) (Proc.devRef .tc main_v1) = _
  after_results
  rfl

/-- The rows the call reads are the reference's gathered rows. -/
theorem rows_eq (c : Dev nD) :
    (V m c main_v8 : FVec Ideal S1600000x64 .f32)
      = Cert.ReferenceIdeal.Term.rows (m ((c : Thread nD τ).loc main_arg0)) (m ((c : Thread nD τ).loc main_arg1)) := by
  show StableHlo.after hostOps0 (fun b => m (c, b)) (Proc.devRef .tc main_v8) = _
  after_results
  rfl

/-- The weight block the call reads is the weight matrix transposed. -/
theorem wT_apply (c : Dev nD) (k j : Fin 64) :
    (V m c main_v9 : FVec Ideal S64x64 .f32) (ix2 k j) = (m ((c : Thread nD τ).loc main_arg2) : FVec Ideal S64x64 .f32) (ix2 j k) := by
  have e : (V m c main_v9 : FVec Ideal S64x64 .f32)
      = transpose S64x64 [1, 0] (m ((c : Thread nD τ).loc main_arg2) : FVec Ideal S64x64 .f32) Facts₀.transposes_S64x64_S64x64_1_0 := by
    show StableHlo.after hostOps0 (fun b => m (c, b)) (Proc.devRef .tc main_v9) = _
    after_results

  rw [e]
  exact transpose_ix2_apply _ _ k j

/-- The first bias reshaped to one row. -/
theorem bias_apply (c : Dev nD) (j : Fin 64) :
    (V m c main_v10 : FVec Ideal S1x64 .f32) (ix2 (0 : Fin 1) j) = (m ((c : Thread nD τ).loc main_arg3) : FVec Ideal S64 .f32) (ix1 j) := by
  have e : (V m c main_v10 : FVec Ideal S1x64 .f32)
      = shapeCast S1x64 (m ((c : Thread nD τ).loc main_arg3) : FVec Ideal S64 .f32) Facts₀.shapeCasts_S64_S1x64 := by
    show StableHlo.after hostOps0 (fun b => m (c, b)) (Proc.devRef .tc main_v10) = _
    after_results
    rfl

  rw [e]
  exact shapeCast_a_1a_apply _ _ (0 : Fin 1) j

/-- The second bias reshaped to one entry. -/
theorem bias2_apply (c : Dev nD) :
    (V m c main_v11 : FVec Ideal S1x1 .f32) (ix2 (0 : Fin 1) (0 : Fin 1)) = (m ((c : Thread nD τ).loc main_arg5) : FVec Ideal S1 .f32) (ix1 (0 : Fin 1)) := by
  have e : (V m c main_v11 : FVec Ideal S1x1 .f32)
      = shapeCast S1x1 (m ((c : Thread nD τ).loc main_arg5) : FVec Ideal S1 .f32) Facts₀.shapeCasts_S1_S1x1 := by
    show StableHlo.after hostOps0 (fun b => m (c, b)) (Proc.devRef .tc main_v11) = _
    after_results
    rfl

  rw [e]
  exact shapeCast_a_1a_apply _ _ (0 : Fin 1) (0 : Fin 1)

end Cert.KernelIdeal.HostPrefix

end
-- ==== Proof.RowSpec.lean ====
/-
  One edge of the attention layer, as plain arithmetic on the extended reals.

  An edge carries the embedding row `ρ` of its source node (64 entries). The row is first clipped to norm at most
  one: it is scaled by `min 1 (1 / (‖ρ‖ + ε))`, the norm the square root of the sum of the squares. The clipped row
  goes through an affine map (`W` a 64 × 64 matrix, `b` a bias), a second affine map to ONE number (`a` a row,
  `β` a bias) gives the edge's score, and the edge's attention weight is `exp (-leaky s)`, where `leaky` is the
  identity on the non-negative side and a small slope on the negative one. The edge's message is its weight times the
  affine image. Both programs of this certificate compute exactly these numbers for every edge; the modules beside
  this one say where each program keeps them.
-/
import Idealize.ShloMosaic.PureOps.Ideal
import Idealize.ShloMosaic.PureOps.Ideal.Laws

noncomputable section

namespace Cert.RowSpec

open Idealize.ShloMosaic

/-- The float `1.0`. -/
abbrev one : EReal := Ideal.ofBits .f32 0x3F800000#32
/-- The float nearest `1e-7`, added to the norm before the division. -/
abbrev eps : EReal := Ideal.ofBits .f32 0x33D6BF95#32
/-- The float nearest `0.01`, the slope on the negative side. -/
abbrev slope : EReal := Ideal.ofBits .f32 0x3C23D70A#32

/-- The factor that clips a row to norm at most one. -/
def clip (ρ : Fin 64 → EReal) : EReal :=
  min one (Ideal.div one (Ideal.sqrt (∑ k : Fin 64, ρ k * ρ k) + eps))

/-- Entry `j` of the affine image of the clipped row. -/
def lin (ρ : Fin 64 → EReal) (W : Fin 64 → Fin 64 → EReal) (b : Fin 64 → EReal) (j : Fin 64) : EReal :=
  (∑ k : Fin 64, ρ k * clip ρ * W k j) + b j

/-- The edge's score: the second affine map, to one number. -/
def score (ρ : Fin 64 → EReal) (W : Fin 64 → Fin 64 → EReal) (b a : Fin 64 → EReal) (β : EReal) : EReal :=
  (∑ k : Fin 64, lin ρ W b k * a k) + β

/-- The leaky rectifier: `s` where `0 ≤ s`, `slope · s` elsewhere. -/
def leaky (s : EReal) : EReal := Scalar.select (Ideal.cmp .oge s 0) s (slope * s)

/-- The edge's attention weight. -/
def att (ρ : Fin 64 → EReal) (W : Fin 64 → Fin 64 → EReal) (b a : Fin 64 → EReal) (β : EReal) : EReal :=
  Ideal.exp (-(leaky (score ρ W b a β)))

/-- Entry `j` of the edge's message. -/
def msg (ρ : Fin 64 → EReal) (W : Fin 64 → Fin 64 → EReal) (b a : Fin 64 → EReal) (β : EReal) (j : Fin 64) : EReal :=
  att ρ W b a β * lin ρ W b j

/-- Testing `0 < s` instead of `0 ≤ s` gives the same rectifier: the two branches agree at `s = 0`, where
    `slope · 0 = 0`. -/
theorem leaky_of_gt (s : EReal) : Scalar.select (Ideal.cmp .ogt s 0) s (slope * s) = leaky s := by
  unfold leaky Ideal.cmp Scalar.select
  rcases lt_trichotomy (0 : EReal) s with h | h | h
  · simp [h, h.le]
  · subst h; simp
  · simp [not_lt.mpr h.le, not_le.mpr h]

/-- Subtracting from zero is negation. -/
theorem zero_sub_eq_neg (x : EReal) : (0 : EReal) - x = -x := by
  rw [sub_eq_add_neg, zero_add]

end Cert.RowSpec

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KerPoint.lean ====
/-
  The block the kernel body leaves behind, read entry by entry.

  The body takes a block of 4000 embedding rows (64 entries each), a 64 × 64 weight block, a bias row, the row of the
  second affine map and its bias, and stores ONE 4000 × 65 block. Row `r` of that block depends on row `r` of the
  embedding block alone: the row is scaled by `min 1 (1 / (‖ρ‖ + ε))`, sent through the first affine map, and the
  image is sent through the second affine map to one number, the score; the score is rectified with a small slope on
  the negative side and the row's attention weight is the exponential of the negated result. Column 0 of row `r` holds
  that weight, and column `j + 1` holds the weight times entry `j` of the first affine image: the row's message.
  These are the numbers `Cert.RowSpec` names for one edge (`att`, `msg`), and the two theorems at the end say so.

  The way there: the block is what its one store wrote, so it is the store's value; that value is a chain of
  elementwise operations, which read through at an index by unfolding, and a few operations that move entries
  around — a sum along each row, a vector turned into a column, a column or a row spread over a block, a matrix
  product, two blocks put side by side — each of which gets one small lemma saying which entry of its operand it
  reads. Two spellings differ from the specification's and are equal to it: the body tests `0 < s` where the
  rectifier is stated with `0 ≤ s` (the branches agree at `s = 0`), and it negates by subtracting from zero.
-/
import proofs.«144017_j77704548319854_1_alg».proof.Proof.Gen.KernelIdeal.Frame
import proofs.«144017_j77704548319854_1_alg».proof.Proof.RowSpec
import proofs.«144017_j77704548319854_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx

/-! ## Layout operations read at an index -/

section Layout
variable {α : Type}

/-- A vector of `a` entries cast to an `a × 1` column reads, at `(p, q)`, the vector at `p`. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An `a × 1` column broadcast to `a × b` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entry a `1 × 1` array is read at by its position `[0, 0]`. -/
theorem extractAt_00_apply (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) :=
  congrArg x (funext fun a => match a with | ⟨0, _⟩ => rfl | ⟨1, _⟩ => rfl)

end Layout

/-- The sum along a row of a `4000 × 64` block, read at row `r`. -/
theorem rowSum_apply (v : FVec Ideal S4000x64 .f32) (hφ : FKind.Formats .f32)
    (hacc : (0x00000000#32 : BitVec 32) = FKind.add.neutral .f32 hφ) (r : Fin 4000) :
    multiReduction .add [1] S4000 v 0x00000000#32 reduces_S4000x64_S4000 hφ hacc (ix1 r) = ∑ k : Fin 64, v (ix2 r k) := by
  refine (Ideal.multiReduction_add_single v _ reduces_S4000x64_S4000 hφ hacc (ix1 r)).trans ?_
  refine Finset.sum_congr rfl fun k _ => congrArg v ?_
  funext a
  match a with
  | ⟨0, _⟩ => exact Fin.ext rfl
  | ⟨1, _⟩ => exact Fin.ext rfl

/-- The zero offsets of a whole-block store or load, as a constant function. -/
theorem hz : (![0, 0] : Fin 2 → Nat) = fun _ => 0 := funext fun a => by fin_cases a <;> rfl

/-- The block after the body is the value of its one store, a function of the five input blocks. -/
theorem out_open (x0 : Vec Ideal S4000x64 .f32) (x1 : Vec Ideal S64x64 .f32) (x2 x3 : Vec Ideal S1x64 .f32) (x4 : Vec Ideal S1x1 .f32) :
    out0_5 x0 x1 x2 x3 x4 = k0_pay1 (k0_pay2 x0 x1 x2) (k0_pay3 x0 x1 x2 x3 x4) (k0_pay4 (F := Ideal)) := by
  unfold out0_5
  rw [View.canon_unit_zero hz]
  simp only [View.ld_unit_zero (S := S4000x64) hz, View.ld_unit_zero (S := S64x64) hz, View.ld_unit_zero (S := S1x64) hz,
    View.ld_unit_zero (S := S1x1) hz]

/-- Column 0 of the stored block: the exponential of the difference of the two columns. -/
theorem pay1_col0 (v23 : FVec Ideal S4000x64 .f32) (v38 v39 : FVec Ideal S4000x1 .f32) (r : Fin 4000) :
    k0_pay1 v23 v38 v39 (ix2 r (0 : Fin 65)) = Ideal.exp (v39 (ix2 r (0 : Fin 1)) - v38 (ix2 r (0 : Fin 1))) := by
  unfold k0_pay1
  refine (concatenate_pair_apply_left (1 : Fin S4000x65.rank) _ _ concatenates_S4000x1_S4000x64_S4000x65_d1
    (ix2 r (0 : Fin 65)) rfl (ix2 r (0 : Fin 1)) fun b => ?_).trans ?_
  · match b with
    | ⟨0, _⟩ => rfl
    | ⟨1, _⟩ => rfl
  · rfl

/-- Column `j + 1` of the stored block: that exponential times entry `j` of the row's affine image. -/
theorem pay1_col_succ (v23 : FVec Ideal S4000x64 .f32) (v38 v39 : FVec Ideal S4000x1 .f32) (r : Fin 4000) (j : Fin 64) :
    k0_pay1 v23 v38 v39 (ix2 r j.succ)
      = Ideal.exp (v39 (ix2 r (0 : Fin 1)) - v38 (ix2 r (0 : Fin 1))) * v23 (ix2 r j) := by
  unfold k0_pay1
  refine (concatenate_pair_apply_right (1 : Fin S4000x65.rank) _ _ concatenates_S4000x1_S4000x64_S4000x65_d1
    (ix2 r j.succ) rfl rfl (ix2 r j) (fun b hb => ?_) rfl).trans ?_
  · match b with
    | ⟨0, _⟩ => rfl
    | ⟨1, _⟩ => exact absurd rfl hb
  · refine (mulf_apply _ _ _).trans ?_
    refine congrArg (· * v23 (ix2 r j)) ?_
    exact broadcastTo_a1_ab_apply _ broadcasts_S4000x1_S4000x64 r j

/-- Entry `(r, j)` of the affine image of the clipped rows: the row is scaled by its clip factor, multiplied into the
    weight block and the bias row is added. -/
theorem pay2_apply (x0 : Vec Ideal S4000x64 .f32) (x1 : Vec Ideal S64x64 .f32) (x2 : Vec Ideal S1x64 .f32) (r : Fin 4000) (j : Fin 64) :
    k0_pay2 x0 x1 x2 (ix2 r j)
      = Cert.RowSpec.lin (fun k => x0 (ix2 r k)) (fun k j => x1 (ix2 k j)) (fun j => x2 (ix2 (0 : Fin 1) j)) j := by
  unfold k0_pay2 Cert.RowSpec.lin
  refine (addf_apply _ _ _).trans ?_
  refine congrArg₂ (· + ·) ?_ ?_
  · -- the product with the weight block, a sum over the row's 64 entries
    refine (PlainDot.matmul_zero_apply 4000 64 64 none _ _ (ix2 r j)).trans ?_
    refine Finset.sum_congr rfl fun k _ => ?_
    refine congrArg₂ (· * ·) ?_ ?_
    · -- the clipped row at entry k
      show (shapeCast S4000x64 x0 shapeCasts_S4000x64_S4000x64 (ix2 r k) : EReal) * broadcastTo S4000x64 _ broadcasts_S4000x1_S4000x64 (ix2 r k) = _
      refine congrArg₂ (· * ·) (congrFun (shapeCast_self x0 shapeCasts_S4000x64_S4000x64) (ix2 r k)) ?_
      refine (broadcastTo_a1_ab_apply _ broadcasts_S4000x1_S4000x64 r k).trans ?_
      unfold Cert.RowSpec.clip
      refine (minimumf_apply _ _ _).trans ?_
      refine congrArg₂ min rfl ?_
      refine (divf_apply _ _ _).trans ?_
      refine congrArg₂ Ideal.div rfl ?_
      refine (addf_apply _ _ _).trans ?_
      refine congrArg₂ (· + ·) ?_ rfl
      show Ideal.sqrt (shapeCast S4000x1 _ shapeCasts_S4000_S4000x1 (ix2 r (0 : Fin 1))) = _
      refine congrArg Ideal.sqrt ?_
      refine (shapeCast_a_a1_apply _ shapeCasts_S4000_S4000x1 r 0).trans ?_
      refine (rowSum_apply _ _ _ r).trans ?_
      refine Finset.sum_congr rfl fun k' _ => ?_
      refine (mulf_apply _ _ _).trans ?_
      rw [shapeCast_self]
    · -- the weight block at (k, j)
      exact congrFun (shapeCast_self x1 shapeCasts_S64x64_S64x64) (ix2 k j)
  · -- the bias row at j
    refine (broadcastTo_1b_ab_apply _ broadcasts_S1x64_S4000x64 r j).trans ?_
    rw [shapeCast_self, shapeCast_self]

/-- The kernel's rectifier column — it tests `0 < s` and multiplies by the slope elsewhere — is the leaky rectifier of
    the column, entry by entry. -/
theorem leaky_col (S : FVec Ideal S4000x1 .f32) (i : S4000x1.Idx) :
    select (cmpf .ogt S (broadcast S4000x1 (Scalar.ofBits (F := Ideal) .f32 0x00000000#32))) S
        (mulf (broadcast S4000x1 (Scalar.ofBits (F := Ideal) .f32 0x3C23D70A#32)) S) i
      = Cert.RowSpec.leaky (S i) := by
  rw [← Cert.RowSpec.leaky_of_gt]
  show Scalar.select (Ideal.cmp .ogt (S i) (Ideal.ofBits .f32 0x00000000#32)) (S i) (Cert.RowSpec.slope * S i) = _
  rw [Ideal.ofBits_zero_f32]

/-- Row `r` of the rectified score column: the second affine map of the row's affine image, rectified. -/
theorem pay3_apply (x0 : Vec Ideal S4000x64 .f32) (x1 : Vec Ideal S64x64 .f32) (x2 x3 : Vec Ideal S1x64 .f32) (x4 : Vec Ideal S1x1 .f32) (r : Fin 4000) :
    k0_pay3 x0 x1 x2 x3 x4 (ix2 r (0 : Fin 1))
      = Cert.RowSpec.leaky (Cert.RowSpec.score (fun k => x0 (ix2 r k)) (fun k j => x1 (ix2 k j)) (fun j => x2 (ix2 (0 : Fin 1) j))
          (fun j => x3 (ix2 (0 : Fin 1) j)) (x4 (ix2 (0 : Fin 1) (0 : Fin 1)))) := by
  unfold k0_pay3
  refine (leaky_col _ _).trans ?_
  refine congrArg Cert.RowSpec.leaky ?_
  unfold Cert.RowSpec.score
  refine (addf_apply _ _ _).trans ?_
  refine congrArg₂ (· + ·) ?_ ?_
  · refine (shapeCast_a_a1_apply _ shapeCasts_S4000_S4000x1 r 0).trans ?_
    refine (rowSum_apply _ _ _ r).trans ?_
    refine Finset.sum_congr rfl fun k _ => ?_
    refine (mulf_apply _ _ _).trans ?_
    refine congrArg₂ (· * ·) (pay2_apply x0 x1 x2 r k) ?_
    refine (broadcastTo_1b_ab_apply _ broadcasts_S1x64_S4000x64 r k).trans ?_
    exact congrFun (shapeCast_self x3 shapeCasts_S1x64_S1x64) _
  · exact extractAt_00_apply x4 inpos_S1x1_p0_0

/-- The exponent of the attention weight: the kernel subtracts the rectified score from a column of zeros. -/
theorem neg_leaky (x0 : Vec Ideal S4000x64 .f32) (x1 : Vec Ideal S64x64 .f32) (x2 x3 : Vec Ideal S1x64 .f32) (x4 : Vec Ideal S1x1 .f32) (r : Fin 4000) :
    k0_pay4 (F := Ideal) (ix2 r (0 : Fin 1)) - k0_pay3 x0 x1 x2 x3 x4 (ix2 r (0 : Fin 1))
      = -(Cert.RowSpec.leaky (Cert.RowSpec.score (fun k => x0 (ix2 r k)) (fun k j => x1 (ix2 k j)) (fun j => x2 (ix2 (0 : Fin 1) j))
          (fun j => x3 (ix2 (0 : Fin 1) j)) (x4 (ix2 (0 : Fin 1) (0 : Fin 1))))) := by
  rw [pay3_apply]
  show Ideal.ofBits .f32 0x00000000#32 - _ = _
  rw [Ideal.ofBits_zero_f32, Cert.RowSpec.zero_sub_eq_neg]

/-- Column 0 of the body's result holds each row's attention weight. -/
theorem out_col0 (x0 : Vec Ideal S4000x64 .f32) (x1 : Vec Ideal S64x64 .f32) (x2 x3 : Vec Ideal S1x64 .f32) (x4 : Vec Ideal S1x1 .f32) (r : Fin 4000) :
    out0_5 x0 x1 x2 x3 x4 (ix2 r (0 : Fin 65))
      = Cert.RowSpec.att (fun k => x0 (ix2 r k)) (fun k j => x1 (ix2 k j)) (fun j => x2 (ix2 (0 : Fin 1) j)) (fun j => x3 (ix2 (0 : Fin 1) j)) (x4 (ix2 (0 : Fin 1) (0 : Fin 1))) := by
  rw [out_open]
  refine (pay1_col0 _ _ _ r).trans ?_
  unfold Cert.RowSpec.att
  exact congrArg Ideal.exp (neg_leaky x0 x1 x2 x3 x4 r)

/-- Columns 1 to 64 of the body's result hold each row's message. -/
theorem out_col_succ (x0 : Vec Ideal S4000x64 .f32) (x1 : Vec Ideal S64x64 .f32) (x2 x3 : Vec Ideal S1x64 .f32) (x4 : Vec Ideal S1x1 .f32) (r : Fin 4000) (j : Fin 64) :
    out0_5 x0 x1 x2 x3 x4 (ix2 r j.succ)
      = Cert.RowSpec.msg (fun k => x0 (ix2 r k)) (fun k j => x1 (ix2 k j)) (fun j => x2 (ix2 (0 : Fin 1) j)) (fun j => x3 (ix2 (0 : Fin 1) j)) (x4 (ix2 (0 : Fin 1) (0 : Fin 1))) j := by
  rw [out_open]
  refine (pay1_col_succ _ _ _ r j).trans ?_
  unfold Cert.RowSpec.msg Cert.RowSpec.att
  exact congrArg₂ (· * ·) (congrArg Ideal.exp (neg_leaky x0 x1 x2 x3 x4 r)) (pay2_apply x0 x1 x2 r j)

end Cert.KernelIdeal.Point

end
-- ==== Proof.RefPoint.lean ====
/-
  The reference's stages read at one edge.

  The stages of the reference are whole-array functions; an edge `i` sees of them only row `i`. Read there, the
  norm column is the square root of the sum of the squares of the gathered row, the clip column is the minimum of one
  and the reciprocal of the norm plus the small constant, the first affine map is the sum over the row's entries of
  the clipped entry times the transposed weight matrix plus the bias, the second affine map is the same sum against
  the one weight row plus its bias, the weight is `exp (-leaky s)` of that score, and the message is the weight times
  the affine image. These are the numbers the one-edge specification names, so each stage at `(i, ·)` is the
  specification's function of row `i`, the transposed weight matrix, and the biases.

  Three kinds of operation have to be read at an index on the way: a broadcast (a rank-zero constant, a column along
  the rows, a row down the rows, a vector made a one-row or one-column matrix), a sum over the second axis of a
  matrix from a zero initial value, and a matrix product with the plain dimension numbers, whose contraction runs over
  the 64 entries of the row.
-/
import proofs.«144017_j77704548319854_1_alg».proof.Proof.RefTerm
import proofs.«144017_j77704548319854_1_alg».proof.Proof.RowSpec
import proofs.«144017_j77704548319854_1_alg».proof.Proof.LibPlainDot
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.Point

open Cert.ReferenceIdeal Idealize.ShloMosaic Idealize.ShloMosaic.ValueIdx

/-! ## Elementwise operations and broadcasts read at an index -/

theorem hostSqrt_apply {s : Shape} {φ : FTy} (x : FVec Ideal s φ) (i : s.Idx) :
    Host.sqrt x i = Ideal.sqrt (x i) := Ideal.hostUnary_sqrt_def _

theorem hostExp_apply {s : Shape} {φ : FTy} (x : FVec Ideal s φ) (i : s.Idx) :
    Host.exp x i = Ideal.exp (x i) := Ideal.hostUnary_exp_def _

theorem hostNegf_apply {s : Shape} {φ : FTy} (x : FVec Ideal s φ) (i : s.Idx) :
    Host.negf x i = -(x i) := rfl

/-- A float constant broadcast from rank zero reads the constant's value everywhere. -/
theorem bcast_const_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b :=
  (broadcastInDim_scalar_apply h _ j).trans (constant_apply (s := ⟨0, ![]⟩) (φ := .f32) b ix0)

/-- A column broadcast along the rows reads the column's entry of that row. -/
theorem bcast_col_apply {α : Type} {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) fun a => ?_
  match a with
  | ⟨0, _⟩ =>
    show r.val = if m = 1 then 0 else r.val
    split
    · next hm => have := r.isLt; omega
    · rfl
  | ⟨1, _⟩ => rfl

/-- A row broadcast down the rows reads the row's entry of that column. -/
theorem bcast_row_apply {α : Type} {m n : Nat} (h : (⟨2, ![1, n]⟩ : Shape).BroadcastsInDim ⟨2, ![m, n]⟩ ![0, 1])
    (y : (⟨2, ![1, n]⟩ : Shape).Idx → α) (r : Fin m) (t : Fin n) :
    broadcastInDim ⟨2, ![m, n]⟩ ![0, 1] h y (ix2 r t) = y (ix2 (0 : Fin 1) t) := by
  refine broadcastInDim_apply ![0, 1] h y (ix2 r t) (ix2 (0 : Fin 1) t) fun a => ?_
  match a with
  | ⟨0, _⟩ => rfl
  | ⟨1, _⟩ =>
    show t.val = if n = 1 then 0 else t.val
    split
    · next hn => have := t.isLt; omega
    · rfl

/-- A vector made a one-row matrix reads the vector's entry of that column. -/
theorem bcast_vec_row_apply {α : Type} {n : Nat} (h : (⟨1, ![n]⟩ : Shape).BroadcastsInDim ⟨2, ![1, n]⟩ ![1])
    (y : (⟨1, ![n]⟩ : Shape).Idx → α) (t : Fin n) :
    broadcastInDim ⟨2, ![1, n]⟩ ![1] h y (ix2 (0 : Fin 1) t) = y (ix1 t) := by
  refine broadcastInDim_apply ![1] h y (ix2 (0 : Fin 1) t) (ix1 t) fun a => ?_
  match a with
  | ⟨0, _⟩ =>
    show t.val = if n = 1 then 0 else t.val
    split
    · next hn => have := t.isLt; omega
    · rfl

/-- A vector made a one-column matrix reads the vector's entry of that row. -/
theorem bcast_vec_col_apply {α : Type} {m : Nat} (h : (⟨1, ![m]⟩ : Shape).BroadcastsInDim ⟨2, ![m, 1]⟩ ![0])
    (y : (⟨1, ![m]⟩ : Shape).Idx → α) (r : Fin m) :
    broadcastInDim ⟨2, ![m, 1]⟩ ![0] h y (ix2 r (0 : Fin 1)) = y (ix1 r) := by
  refine broadcastInDim_apply ![0] h y (ix2 r (0 : Fin 1)) (ix1 r) fun a => ?_
  match a with
  | ⟨0, _⟩ =>
    show r.val = if m = 1 then 0 else r.val
    split
    · next hm => have := r.isLt; omega
    · rfl

/-! ## The clip factor -/

/-- The sum of the squares of row `i`. -/
theorem sumsq_apply (R : FVec Ideal S1600000x64 .f32) (i : Fin 1600000) :
    Host.reduceAdd (mulf R R) (constant S_ .f32 0x00000000#32) Facts₀.reducesTo_S1600000x64_S1600000_d1 Facts₀.h_S_ (ix1 i)
      = ∑ k : Fin 64, R (ix2 i k) * R (ix2 i k) := by
  have hr : S1600000x64.Reduces [1] S1600000 := by decide
  refine (Ideal.hostReduceAdd_single Facts₀.reducesTo_S1600000x64_S1600000_d1 hr (mulf R R) _ (ix1 i)).trans ?_
  show Ideal.ofBits .f32 0x00000000#32 + ∑ k : Fin 64, (mulf R R) (hr.lift (ix1 i) k) = _
  rw [Ideal.ofBits_zero_f32, zero_add]
  refine Finset.sum_congr rfl fun k _ => ?_
  have e : hr.lift (ix1 i) k = ix2 i k :=
    funext fun a => Fin.ext (by
      match a with
      | ⟨0, _⟩ => rfl
      | ⟨1, _⟩ => rfl)
  rw [e]
  rfl

/-- The norm of row `i`. -/
theorem nrm_apply (R : FVec Ideal S1600000x64 .f32) (i : Fin 1600000) :
    Term.nrm R (ix2 i (0 : Fin 1)) = Ideal.sqrt (∑ k : Fin 64, R (ix2 i k) * R (ix2 i k)) := by
  unfold Term.nrm
  refine (hostSqrt_apply _ _).trans (congrArg Ideal.sqrt ?_)
  refine (bcast_vec_col_apply Facts₀.bcast_S1600000_S1600000x1_0 _ i).trans ?_
  exact sumsq_apply R i

/-- The clip factor of row `i`. -/
theorem scl_apply (R : FVec Ideal S1600000x64 .f32) (i : Fin 1600000) :
    Term.scl R (ix2 i (0 : Fin 1)) = Cert.RowSpec.clip (fun k => R (ix2 i k)) := by
  unfold Term.scl Cert.RowSpec.clip
  rw [minimumf_apply, hostDivf_apply, addf_apply, nrm_apply]
  rw [bcast_const_apply, bcast_const_apply]

/-! ## The two affine maps -/

/-- A plain matrix product's contraction sum at `(p, q)`, over the middle extent. -/
theorem plain_sum_apply (M K N : Nat) {α : Type*} [AddCommMonoid α] [Mul α] (l : (⟨2, ![M, K]⟩ : Shape).Idx → α)
    (r : (⟨2, ![K, N]⟩ : Shape).Idx → α) (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) :=
  PlainDot.sum_contr M K N l r (ix2 p q)

/-- A plain matrix product with no accumulator, at `(p, q)`. -/
theorem plain_dot_apply (M K N : Nat) (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) (p : Fin M) (q : Fin N) :
    Host.dotGeneral D none l r (ix2 p q) = ∑ k : Fin K, l (ix2 p k) * r (ix2 k q) := by
  subst hD
  exact (Ideal.dotGeneral_apply _ none .single l r (ix2 p q)).trans (plain_sum_apply M K N l r p q)

/-- Entry `j` of the affine image of the clipped row `i`. -/
theorem lin_apply (R : FVec Ideal S1600000x64 .f32) (a2 : FVec Ideal S64x64 .f32) (a3 : FVec Ideal S64 .f32)
    (i : Fin 1600000) (j : Fin 64) :
    Term.lin R a2 a3 (ix2 i j)
      = Cert.RowSpec.lin (fun k => R (ix2 i k)) (fun k j => a2 (ix2 j k)) (fun j => a3 (ix1 j)) j := by
  unfold Term.lin Cert.RowSpec.lin
  rw [addf_apply, bcast_row_apply, bcast_vec_row_apply]
  refine congrArg (· + a3 (ix1 j)) ?_
  refine (plain_dot_apply 1600000 64 64 _ rfl _ _ i j).trans ?_
  refine Finset.sum_congr rfl fun k _ => ?_
  rw [mulf_apply, bcast_col_apply, scl_apply, transpose_ix2_apply]

/-- The score of edge `i`, over any array of affine images. -/
theorem score_apply_of (C : FVec Ideal S1600000x64 .f32) (a4 : FVec Ideal S1x64 .f32) (a5 : FVec Ideal S1 .f32)
    (i : Fin 1600000) :
    Term.score C a4 a5 (ix2 i (0 : Fin 1))
      = (∑ k : Fin 64, C (ix2 i k) * a4 (ix2 (0 : Fin 1) k)) + a5 (ix1 (0 : Fin 1)) := by
  unfold Term.score
  rw [addf_apply, bcast_row_apply, bcast_vec_row_apply]
  refine congrArg (· + a5 (ix1 (0 : Fin 1))) ?_
  refine (plain_dot_apply 1600000 64 1 _ rfl _ _ i (0 : Fin 1)).trans ?_
  refine Finset.sum_congr rfl fun k _ => ?_
  rw [transpose_ix2_apply]

/-- The score of edge `i`. -/
theorem score_apply (R : FVec Ideal S1600000x64 .f32) (a2 : FVec Ideal S64x64 .f32) (a3 : FVec Ideal S64 .f32)
    (a4 : FVec Ideal S1x64 .f32) (a5 : FVec Ideal S1 .f32) (i : Fin 1600000) :
    Term.score (Term.lin R a2 a3) a4 a5 (ix2 i (0 : Fin 1))
      = Cert.RowSpec.score (fun k => R (ix2 i k)) (fun k j => a2 (ix2 j k)) (fun j => a3 (ix1 j))
          (fun j => a4 (ix2 (0 : Fin 1) j)) (a5 (ix1 (0 : Fin 1))) := by
  rw [score_apply_of]
  unfold Cert.RowSpec.score
  refine congrArg (· + a5 (ix1 (0 : Fin 1))) ?_
  refine Finset.sum_congr rfl fun k _ => ?_
  rw [lin_apply]

/-! ## The attention weight and the message -/

/-- The weight at an index is `exp (-leaky s)` of the score there. -/
theorem att_apply_of (S : FVec Ideal S1600000x1 .f32) (x : S1600000x1.Idx) :
    Term.att S x = Ideal.exp (-(Cert.RowSpec.leaky (S x))) := by
  unfold Term.att Cert.RowSpec.leaky
  rw [hostExp_apply, hostNegf_apply, select_apply, cmpf_apply, mulf_apply, bcast_const_apply, bcast_const_apply,
    Ideal.ofBits_zero_f32, Ideal.cmpf_def]

/-- The attention weight of edge `i`. -/
theorem att_apply (R : FVec Ideal S1600000x64 .f32) (a2 : FVec Ideal S64x64 .f32) (a3 : FVec Ideal S64 .f32)
    (a4 : FVec Ideal S1x64 .f32) (a5 : FVec Ideal S1 .f32) (i : Fin 1600000) :
    Term.att (Term.score (Term.lin R a2 a3) a4 a5) (ix2 i (0 : Fin 1))
      = Cert.RowSpec.att (fun k => R (ix2 i k)) (fun k j => a2 (ix2 j k)) (fun j => a3 (ix1 j))
          (fun j => a4 (ix2 (0 : Fin 1) j)) (a5 (ix1 (0 : Fin 1))) := by
  rw [att_apply_of, score_apply]
  rfl

/-- Entry `j` of the message of edge `i`. -/
theorem msg_apply (R : FVec Ideal S1600000x64 .f32) (a2 : FVec Ideal S64x64 .f32) (a3 : FVec Ideal S64 .f32)
    (a4 : FVec Ideal S1x64 .f32) (a5 : FVec Ideal S1 .f32) (i : Fin 1600000) (j : Fin 64) :
    Term.msg (Term.att (Term.score (Term.lin R a2 a3) a4 a5)) (Term.lin R a2 a3) (ix2 i j)
      = Cert.RowSpec.msg (fun k => R (ix2 i k)) (fun k j => a2 (ix2 j k)) (fun j => a3 (ix1 j))
          (fun j => a4 (ix2 (0 : Fin 1) j)) (a5 (ix1 (0 : Fin 1))) j := by
  unfold Term.msg Cert.RowSpec.msg
  rw [mulf_apply, bcast_col_apply, att_apply, lin_apply]

end Cert.ReferenceIdeal.Point

end
-- ==== Proof.KerArray.lean ====
/-
  The array the kernel's grid call leaves behind. The call runs over 400 grid points; point `t` reads rows
  `4000 t … 4000 t + 3999` of the gathered embedding rows (and, at every point, the whole transposed weight matrix and
  the three small operands) and writes back rows `4000 t … 4000 t + 3999` of a 1,600,000 × 65 array: per edge its
  attention weight in column 0 and its message in columns 1 … 64. Entry by entry these are the reference's own
  weight and message arrays laid side by side — each side is the one-edge arithmetic of the edge's gathered row —
  and the 400 blocks tile the array, so after the call the array IS the two reference arrays side by side.
-/
import proofs.«144017_j77704548319854_1_alg».proof.Proof.Gen.KernelIdeal.Frame
import proofs.«144017_j77704548319854_1_alg».proof.Proof.RefTerm
import proofs.«144017_j77704548319854_1_alg».proof.Proof.RowSpec
import proofs.«144017_j77704548319854_1_alg».proof.Proof.Glue
import proofs.«144017_j77704548319854_1_alg».proof.Proof.KerHost
import proofs.«144017_j77704548319854_1_alg».proof.Proof.KerPoint
import proofs.«144017_j77704548319854_1_alg».proof.Proof.RefPoint
import Idealize.ShloMosaic.Lib.ValueIdx
import Idealize.ShloMosaic.Lib.Pipeline.Value

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-- The affine image of the clipped gathered rows, as the reference writes it, of the kernel program's arguments. -/
def linA (c : Dev nD) : FVec Ideal S1600000x64 .f32 :=
  Cert.ReferenceIdeal.Term.lin
    (Cert.ReferenceIdeal.Term.rows (m ((c : Thread nD τ).loc main_arg0)) (m ((c : Thread nD τ).loc main_arg1)))
    (m ((c : Thread nD τ).loc main_arg2)) (m ((c : Thread nD τ).loc main_arg3))

/-- The edges' attention weights, as the reference writes them. -/
def attA (c : Dev nD) : FVec Ideal S1600000x1 .f32 :=
  Cert.ReferenceIdeal.Term.att (Cert.ReferenceIdeal.Term.score (linA m c)
    (m ((c : Thread nD τ).loc main_arg4)) (m ((c : Thread nD τ).loc main_arg5)))

/-- The edges' messages, as the reference writes them. -/
def msgA (c : Dev nD) : FVec Ideal S1600000x64 .f32 :=
  Cert.ReferenceIdeal.Term.msg (attA m c) (linA m c)

/-- What the call's output array ends holding: the weights in column 0, the messages beside them. -/
def G5 (c : Dev nD) : FVec Ideal S1600000x65 .f32 := Cert.Glue.glue (attA m c) (msgA m c)

theorem hz : (![0, 0] : Fin 2 → Nat) = fun _ => 0 := funext fun a => by fin_cases a <;> rfl

/-- The printed index maps over the 400 grid points: the rows' window and the output's window move one block
    of 4000 rows per point, the four small operands stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 400 := Nat.lt_of_lt_of_eq t.isLt N_0

/-- Row `r` of the rows' block at point `t` is row `4000 t + r` of the gathered rows. -/
theorem blk0_apply (c : Dev nD) (t : Fin cfg0.N) (r : Fin 4000) (k : Fin 64) :
    (iblk m c 0 t : Vec Ideal S4000x64 .f32) (ix2 r k)
      = (V m c main_v8 : FVec Ideal S1600000x64 .f32) (ix2 ⟨4000 * t.val + r.val, by have := t_lt t; omega⟩ k) := by
  show V m c main_v8 (((cfg0.win 0).blk t).view.emb (ix2 r k)) = _
  obtain ⟨e0, e1, -⟩ := idx_facts t
  refine congrArg (V m c main_v8 : FVec Ideal S1600000x64 .f32) ?_
  funext a; apply Fin.ext
  match a with
  | ⟨0, _⟩ => show win0_0.index t (0 : Fin 2) * 4000 + 1 * r.val = 4000 * t.val + r.val; omega
  | ⟨1, _⟩ => show win0_0.index t (1 : Fin 2) * 64 + 1 * k.val = k.val; omega

/-- The weight block is the whole transposed matrix at every point. -/
theorem blk1_eq (c : Dev nD) (t : Fin cfg0.N) : (iblk m c 1 t : Vec Ideal S64x64 .f32) = V m c main_v9 := by
  funext y
  show V m c main_v9 (((cfg0.win 1).blk t).view.emb y) = V m c main_v9 y
  obtain ⟨-, -, e0, e1, -⟩ := idx_facts t
  refine congrArg (V m c main_v9 : FVec Ideal S64x64 .f32) ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem blk2_eq (c : Dev nD) (t : Fin cfg0.N) : (iblk m c 2 t : Vec Ideal S1x64 .f32) = V m c main_v10 := by
  funext y
  show V m c main_v10 (((cfg0.win 2).blk t).view.emb y) = V m c main_v10 y
  obtain ⟨-, -, -, -, e0, e1, -⟩ := idx_facts t
  refine congrArg (V m c main_v10 : FVec Ideal S1x64 .f32) ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

theorem blk3_eq (c : Dev nD) (t : Fin cfg0.N) : (iblk m c 3 t : Vec Ideal S1x64 .f32) = V m c main_arg4 := by
  funext y
  show V m c main_arg4 (((cfg0.win 3).blk t).view.emb y) = V m c main_arg4 y
  obtain ⟨-, -, -, -, -, -, e0, e1, -⟩ := idx_facts t
  refine congrArg (V m c main_arg4 : FVec Ideal S1x64 .f32) ?_
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blk4_eq (c : Dev nD) (t : Fin cfg0.N) : (iblk m c 4 t : Vec Ideal S1x1 .f32) = V m c main_v11 := by
  funext y
  show V m c main_v11 (((cfg0.win 4).blk t).view.emb y) = V m c main_v11 y
  obtain ⟨-, -, -, -, -, -, -, -, e0, e1, -⟩ := idx_facts t
  refine congrArg (V m c main_v11 : FVec Ideal S1x1 .f32) ?_
  funext a; apply Fin.ext
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- One entry of what point `t` leaves in the output block is the same entry of `G5`, block `t`: column 0 is the
    weight of the block's row, column `j + 1` entry `j` of its message — each side is the one-edge arithmetic of that
    row of the gathered rows. -/
theorem block_eq (c : Dev nD) (t : Fin cfg0.N) (x0 : Vec Ideal S4000x64 .f32) (x1 : Vec Ideal S64x64 .f32)
    (x2 x3 : Vec Ideal S1x64 .f32) (x4 : Vec Ideal S1x1 .f32)
    (h0 : ∀ (r : Fin 4000) (k : Fin 64), x0 (ix2 r k)
      = (V m c main_v8 : FVec Ideal S1600000x64 .f32) (ix2 ⟨4000 * t.val + r.val, by have := t_lt t; omega⟩ k))
    (h1 : x1 = V m c main_v9) (h2 : x2 = V m c main_v10) (h3 : x3 = V m c main_arg4) (h4 : x4 = V m c main_v11)
    (r : Fin 4000) (q : Fin 65) :
    out0_5 x0 x1 x2 x3 x4 (ix2 r q) = G5 m c (ix2 ⟨4000 * t.val + r.val, by have := t_lt t; omega⟩ q) := by
  have eρ : (fun k : Fin 64 => x0 (ix2 r k))
      = fun k : Fin 64 => Cert.ReferenceIdeal.Term.rows (m ((c : Thread nD τ).loc main_arg0)) (m ((c : Thread nD τ).loc main_arg1))
          (ix2 (⟨4000 * t.val + r.val, by have := t_lt t; omega⟩ : Fin 1600000) k) :=
    funext fun k => (h0 r k).trans (congrFun (HostPrefix.rows_eq m c) _)
  have eW : (fun k j : Fin 64 => x1 (ix2 k j))
      = fun k j : Fin 64 => (m ((c : Thread nD τ).loc main_arg2) : FVec Ideal S64x64 .f32) (ix2 j k) :=
    funext fun k => funext fun j => by rw [h1]; exact HostPrefix.wT_apply m c k j
  have eb : (fun j : Fin 64 => x2 (ix2 (0 : Fin 1) j))
      = fun j : Fin 64 => (m ((c : Thread nD τ).loc main_arg3) : FVec Ideal S64 .f32) (ix1 j) :=
    funext fun j => by rw [h2]; exact HostPrefix.bias_apply m c j
  have ea : (fun j : Fin 64 => x3 (ix2 (0 : Fin 1) j))
      = fun j : Fin 64 => (m ((c : Thread nD τ).loc main_arg4) : FVec Ideal S1x64 .f32) (ix2 (0 : Fin 1) j) :=
    funext fun j => by rw [h3, V_main_arg4]
  have eβ : x4 (ix2 (0 : Fin 1) (0 : Fin 1)) = (m ((c : Thread nD τ).loc main_arg5) : FVec Ideal S1 .f32) (ix1 (0 : Fin 1)) := by
    rw [h4]; exact HostPrefix.bias2_apply m c
  unfold G5
  cases q using Fin.cases with
  | zero =>
    rw [Cert.Glue.glue_zero]
    refine (Point.out_col0 x0 x1 x2 x3 x4 r).trans ?_
    rw [eρ, eW, eb, ea, eβ]
    unfold attA linA
    exact (Cert.ReferenceIdeal.Point.att_apply _ _ _ _ _ _).symm
  | succ j =>
    rw [Cert.Glue.glue_succ]
    refine (Point.out_col_succ x0 x1 x2 x3 x4 r j).trans ?_
    rw [eρ, eW, eb, ea, eβ]
    unfold msgA attA linA
    exact (Cert.ReferenceIdeal.Point.msg_apply _ _ _ _ _ _ _).symm

/-- What point `t` writes back is block `t` of `G5`. -/
theorem flushed_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  funext y
  show out0_5 (iblk m c 0 t) (iblk m c 1 t) (iblk m c 2 t) (iblk m c 3 t) (iblk m c 4 t) y
    = G5 m c (((cfg0.win 5).blk t).view.emb y)
  obtain ⟨-, -, -, -, -, -, -, -, -, -, e0, e1⟩ := idx_facts t
  have hy : y = (ix2 (⟨(y 0).val, idx2_lt0 y⟩ : Fin 4000) (⟨(y 1).val, idx2_lt1 y⟩ : Fin 65) : S4000x65.Idx) := by
    funext a; apply Fin.ext
    match a with
    | ⟨0, _⟩ => rfl
    | ⟨1, _⟩ => rfl
  have he : ((cfg0.win 5).blk t).view.emb y
      = (ix2 (⟨4000 * t.val + (y 0).val, by have := t_lt t; have := idx2_lt0 y; omega⟩ : Fin 1600000) (⟨(y 1).val, idx2_lt1 y⟩ : Fin 65) : S1600000x65.Idx) := by
    funext a; apply Fin.ext
    match a with
    | ⟨0, _⟩ => show win0_5.index t (0 : Fin 2) * 4000 + 1 * (y 0).val = 4000 * t.val + (y 0).val; omega
    | ⟨1, _⟩ => show win0_5.index t (1 : Fin 2) * 65 + 1 * (y 1).val = (y 1).val; omega
  rw [he, hy]
  exact block_eq m c t _ _ _ _ _ (blk0_apply m c t) (blk1_eq m c t) (blk2_eq m c t) (blk3_eq m c t) (blk4_eq m c t) _ _

/-- An index of the output array is in point `t`'s block iff each coordinate is in the block's range. -/
theorem mem_blk (t : Fin cfg0.N) (i : S1600000x65.Idx) :
    i ∈ ((cfg0.win 5).blk t).view.set ↔ ∀ a : Fin 2, win0_5.index t a * S4000x65.size a ≤ (i a).val ∧ (i a).val < win0_5.index t a * S4000x65.size a + S4000x65.size a := by
  show i ∈ ((View.whole main_v12).slice (win0_5.rect t)).set ↔ _
  rw [View.set_slice_whole, Rect.mem_set_unit]
  exact Iff.rfl

/-- Every edge's row lies in the block of the point `row / 4000`: the 400 blocks tile the array. -/
theorem cover (i : S1600000x65.Idx) :
    ∃ t : Fin cfg0.N, (cfg0.win 5).flush t = true ∧ i ∈ ((cfg0.win 5).blk t).view.set := by
  have hi0 : (i 0).val < 1600000 := idx2_lt0 i
  have hi1 : (i 1).val < 65 := idx2_lt1 i
  let t : Fin cfg0.N := ⟨(i 0).val / 4000, Nat.lt_of_lt_of_eq (by omega : (i 0).val / 4000 < 400) N_0.symm⟩
  obtain ⟨-, -, -, -, -, -, -, -, -, -, e0, e1⟩ := idx_facts t
  have ht : t.val = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 65 ≤ (i 1).val ∧ (i 1).val < win0_5.index t (1 : Fin 2) * 65 + 65; omega

/-- The output array after the call: the weights and the messages side by side. -/
theorem final (c : Dev nD) : (dats m 0 c).arrAt 5 cfg0.N = G5 m c :=
  (dats m 0 c).arrAt_eq_of_cover 5 (G5 m c) (fun t _ => flushed_eq m c t) (cover)

end Cert.KernelIdeal.Array

end
-- ==== Proof.KerRun.lean ====
/-
  The kernel program's run, read back: after its grid call the output array is the reference's weight and message
  arrays side by side (the module on that array), the two slices that follow take them apart again, and the remaining
  lines — two scatter-sums over the source nodes, the guarded quotient, the rectifier — are the reference's aggregation,
  line for line. So the program's result is the reference's stage-by-stage term of the same six arguments.
-/
import proofs.«144017_j77704548319854_1_alg».proof.Proof.Gen.KernelIdeal.Frame
import proofs.«144017_j77704548319854_1_alg».proof.Proof.RefTerm
import proofs.«144017_j77704548319854_1_alg».proof.Proof.Glue
import proofs.«144017_j77704548319854_1_alg».proof.Proof.KerHost
import proofs.«144017_j77704548319854_1_alg».proof.Proof.KerArray
import Idealize.ShloMosaic.Lib.ValueIdx
import Idealize.ShloMosaic.Lib.Pipeline.Value
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- A transport along an equation between a type and itself is the identity. -/
theorem cast_self {α : Sort _} (h : α = α) (a : α) : cast h a = a := by
  have e : cast h a = a := cast_eq h a
  exact e

/-- The kernel program's lines after the call are the reference's aggregation, operation for operation. -/
theorem agg_eq (s : IVec S1600000 32) (E : FVec Ideal S1600000x1 .f32) (U : FVec Ideal S1600000x64 .f32) :
    maximumf
      (Host.divf
        (Host.scatterAdd scatter_S100000x64_S1600000x1_S1600000x64_1_0_0_1
          (broadcastInDim S100000x64 ![] Facts₀.bcast_S_S100000x64 (constant S_ FTy.f32 0x00000000#32))
          (broadcastInDim S1600000x1 ![0] Facts₀.bcast_S1600000_S1600000x1_0 s) U)
        (broadcastInDim S100000x64 ![0, 1] Facts₀.bcast_S100000x1_S100000x64_0_1
          (select
            (cmpf CmpFPredicate.oeq
              (Host.scatterAdd scatter_S100000x1_S1600000x1_S1600000x1_1_0_0_1
                (broadcastInDim S100000x1 ![] Facts₀.bcast_S_S100000x1 (constant S_ FTy.f32 0x00000000#32))
                (broadcastInDim S1600000x1 ![0] Facts₀.bcast_S1600000_S1600000x1_0 s) E)
              (broadcastInDim S100000x1 ![] Facts₀.bcast_S_S100000x1 (constant S_ FTy.f32 0x00000000#32)))
            (broadcastInDim S100000x1 ![] Facts₀.bcast_S_S100000x1 (id (constant S_ FTy.f32 0x2B8CBCCC#32)))
            (Host.scatterAdd scatter_S100000x1_S1600000x1_S1600000x1_1_0_0_1
              (broadcastInDim S100000x1 ![] Facts₀.bcast_S_S100000x1 (constant S_ FTy.f32 0x00000000#32))
              (broadcastInDim S1600000x1 ![0] Facts₀.bcast_S1600000_S1600000x1_0 s) E))))
      (broadcastInDim S100000x64 ![] Facts₀.bcast_S_S100000x64 (constant S_ FTy.f32 0x00000000#32))
    = Cert.ReferenceIdeal.Term.agg s E U := by
  unfold Cert.ReferenceIdeal.Term.agg
  rfl

/-- The kernel program's result: the aggregation applied to the call's output array taken apart again — the
    reference's result of the same arguments. -/
theorem result_eq (c : Dev nD) :
    Pipeline.afterTail₀ cfgs (dats m) 0 (V0 m) [hostOps1, hostOps1_1, hostOps1_2, hostOps1_3] c main_v26
      = Cert.ReferenceIdeal.Term.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  generalize hW : Pipeline.withArrays (cfgs 0).spec c (V0 m c) (fun w => (dats m 0 c).arrAt w (cfgs 0).N) = W
  have e12 : W (Proc.devRef .tc main_v12) = Array.G5 m c := by
    rw [← hW]
    exact (Pipeline.withArrays_arr spec0 launch0.win.arr_inj c _ _ 5).trans (Array.final m c)
  have e1 : W (Proc.devRef .tc main_v1) = Cert.ReferenceIdeal.Term.src (m ((c : Thread nD τ).loc main_arg0)) := by
    rw [← hW]
    exact (Pipeline.withArrays_of_ne spec0 c (V0 m c) _ main_v1 (by exact (by decide : ∀ w, Pipeline.arrRef spec0 w ≠ main_v1))).trans
      (HostPrefix.src_eq m c)
  simp only [hostOps1, hostOps1_1, hostOps1_2, hostOps1_3, List.flatten_cons, List.flatten_nil, List.append_nil, List.cons_append,
    List.nil_append]
  after_results_simp
  rw [e12, e1]
  unfold Array.G5
  rw [Cert.Glue.slice_zero, Cert.Glue.slice_succ]
  have hout : Cert.ReferenceIdeal.Term.out (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5))
      = Cert.ReferenceIdeal.Term.agg (Cert.ReferenceIdeal.Term.src (m ((c : Thread nD τ).loc main_arg0))) (Array.attA m c) (Array.msgA m c) := by
    unfold Cert.ReferenceIdeal.Term.out Array.msgA Array.attA Array.linA
    rfl
  rw [hout]
  generalize Array.attA m c = E
  generalize Array.msgA m c = U
  generalize Cert.ReferenceIdeal.Term.src (m ((c : Thread nD τ).loc main_arg0)) = s
  simp only [cast_self]
  exact agg_eq s E U

/-- Every weakly fair execution of the kernel program terminates with its result at the reference's term of the
    arguments, and the six arguments unchanged. -/
theorem run : θ_run (defs (F := Ideal)) (onTc (τ := τ) (main (F := Ideal))) ⟨m, fun _ => 0, ρ⟩ fun r => ∀ c : Dev nD,
      r.2.mem ((c.tc : Thread nD τ).loc main_v26)
        = Cert.ReferenceIdeal.Term.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.Run

end
-- ==== Proof.RefRun.lean ====
/-
  The reference program's run, read back. Its entry function is a straight line of sixty-eight array operations: eleven
  that pick the edges' source nodes and gather their embedding rows, five for the rows' norms (the first outlined
  function), twenty-one for the clip factor, the affine image and the score, seven for the leaky rectifier (the second
  outlined function, whose last line is the select of a third), sixteen for the attention weight, the message and the two
  scatter-sums, then the guarded denominator (three, the fourth function), the quotient and the rectifier (three, the
  fifth). Written as one list, each outlined function's lines stand at its call over that call's own buffers; the entry
  function equals the list run in order, and the buffers' final contents are the list's fold over the launch contents.
  At the result buffer that fold is the stage-by-stage term `Term.out` of the six arguments, and the arguments' buffers
  are written by no line, so they keep their contents.
-/
import proofs.«144017_j77704548319854_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's sixty-eight operations in order, each outlined function's lines in place of its call. -/
abbrev ops : List (HloOp τ sig (Elt F)) :=
  [
    unary main_arg0 main_v0 ((extractStridedSlice S1600000x1 ![0, 0] · slices_S1600000x3_S1600000x1_0_0) : (⟨S1600000x3, .i32⟩ : BufTy).Contents (Elt F) → (⟨S1600000x1, .i32⟩ : BufTy).Contents (Elt F)),
    reshape main_v0 main_v1 rfl shapeCasts_S1600000x1_S1600000,
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_v1 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_v1 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_v1 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_arg1 main_v7 main_v8 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    TRef.binary (.of main_v8) (.of main_v8) main_call0.v0 mulf,
    TRef.nullary main_call0.cst (constant S_ .f32 0x00000000#32),
    TRef.binary main_call0.v0 main_call0.cst main_call0.v1 (fun x v => Host.reduceAdd x v reducesTo_S1600000x64_S1600000_d1 h_S_),
    TRef.unary main_call0.v1 main_call0.v2 (broadcastInDim S1600000x1 ![0] bcast_S1600000_S1600000x1_0),
    TRef.unary main_call0.v2 main_call0.v3 Host.sqrt,
    nullary main_cst (constant S_ .f32 0x33D6BF95#32),
    unary main_cst main_v10 (broadcastInDim S1600000x1 ![] bcast_S_S1600000x1 : (⟨S_, .f32⟩ : BufTy).Contents (Elt F) → (⟨S1600000x1, .f32⟩ : BufTy).Contents (Elt F)),
    binary main_v9 main_v10 main_v11 (addf : (⟨S1600000x1, .f32⟩ : BufTy).Contents (Elt F) → (⟨S1600000x1, .f32⟩ : BufTy).Contents (Elt F) → (⟨S1600000x1, .f32⟩ : BufTy).Contents (Elt F)),
    nullary main_cst_1 (constant S_ .f32 0x3F800000#32),
    unary main_cst_1 main_v12 (broadcastInDim S1600000x1 ![] bcast_S_S1600000x1 : (⟨S_, .f32⟩ : BufTy).Contents (Elt F) → (⟨S1600000x1, .f32⟩ : BufTy).Contents (Elt F)),
    binary main_v12 main_v11 main_v13 (Host.divf : (⟨S1600000x1, .f32⟩ : BufTy).Contents (Elt F) → (⟨S1600000x1, .f32⟩ : BufTy).Contents (Elt F) → (⟨S1600000x1, .f32⟩ : BufTy).Contents (Elt F)),
    nullary main_cst_2 (constant S_ .f32 0x3F800000#32),
    unary main_cst_2 main_v14 (broadcastInDim S1600000x1 ![] bcast_S_S1600000x1 : (⟨S_, .f32⟩ : BufTy).Contents (Elt F) → (⟨S1600000x1, .f32⟩ : BufTy).Contents (Elt F)),
    binary main_v14 main_v13 main_v15 (minimumf : (⟨S1600000x1, .f32⟩ : BufTy).Contents (Elt F) → (⟨S1600000x1, .f32⟩ : BufTy).Contents (Elt F) → (⟨S1600000x1, .f32⟩ : BufTy).Contents (Elt F)),
    unary main_v15 main_v16 (broadcastInDim S1600000x64 ![0, 1] bcast_S1600000x1_S1600000x64_0_1 : (⟨S1600000x1, .f32⟩ : BufTy).Contents (Elt F) → (⟨S1600000x64, .f32⟩ : BufTy).Contents (Elt F)),
    binary main_v8 main_v16 main_v17 (mulf : (⟨S1600000x64, .f32⟩ : BufTy).Contents (Elt F) → (⟨S1600000x64, .f32⟩ : BufTy).Contents (Elt F) → (⟨S1600000x64, .f32⟩ : BufTy).Contents (Elt F)),
    unary main_arg2 main_v18 ((transpose S64x64 [1, 0] · transposes_S64x64_S64x64_1_0) : (⟨S64x64, .f32⟩ : BufTy).Contents (Elt F) → (⟨S64x64, .f32⟩ : BufTy).Contents (Elt F)),
    binary main_v17 main_v18 main_v19 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg3 main_v20 (broadcastInDim S1x64 ![1] bcast_S64_S1x64_1 : (⟨S64, .f32⟩ : BufTy).Contents (Elt F) → (⟨S1x64, .f32⟩ : BufTy).Contents (Elt F)),
    unary main_v20 main_v21 (broadcastInDim S1600000x64 ![0, 1] bcast_S1x64_S1600000x64_0_1 : (⟨S1x64, .f32⟩ : BufTy).Contents (Elt F) → (⟨S1600000x64, .f32⟩ : BufTy).Contents (Elt F)),
    binary main_v19 main_v21 main_v22 (addf : (⟨S1600000x64, .f32⟩ : BufTy).Contents (Elt F) → (⟨S1600000x64, .f32⟩ : BufTy).Contents (Elt F) → (⟨S1600000x64, .f32⟩ : BufTy).Contents (Elt F)),
    unary main_arg4 main_v23 ((transpose S64x1 [1, 0] · transposes_S1x64_S64x1_1_0) : (⟨S1x64, .f32⟩ : BufTy).Contents (Elt F) → (⟨S64x1, .f32⟩ : BufTy).Contents (Elt F)),
    binary main_v22 main_v23 main_v24 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg5 main_v25 (broadcastInDim S1x1 ![1] bcast_S1_S1x1_1 : (⟨S1, .f32⟩ : BufTy).Contents (Elt F) → (⟨S1x1, .f32⟩ : BufTy).Contents (Elt F)),
    unary main_v25 main_v26 (broadcastInDim S1600000x1 ![0, 1] bcast_S1x1_S1600000x1_0_1 : (⟨S1x1, .f32⟩ : BufTy).Contents (Elt F) → (⟨S1600000x1, .f32⟩ : BufTy).Contents (Elt F)),
    binary main_v24 main_v26 main_v27 (addf : (⟨S1600000x1, .f32⟩ : BufTy).Contents (Elt F) → (⟨S1600000x1, .f32⟩ : BufTy).Contents (Elt F) → (⟨S1600000x1, .f32⟩ : BufTy).Contents (Elt F)),
    TRef.nullary main_call1.cst (constant S_ .f32 0x00000000#32),
    TRef.unary main_call1.cst main_call1.v0 (broadcastInDim S1600000x1 ![] bcast_S_S1600000x1),
    TRef.binary (.of main_v27) main_call1.v0 main_call1.v1 (cmpf .oge),
    TRef.nullary main_call1.cst_0 (constant S_ .f32 0x3C23D70A#32),
    TRef.unary main_call1.cst_0 main_call1.v2 (broadcastInDim S1600000x1 ![] bcast_S_S1600000x1),
    TRef.binary main_call1.v2 (.of main_v27) main_call1.v3 mulf,
    TRef.ternary main_call1.v1 (.of main_v27) main_call1.v3 main_call1.call0.v0 select,
    unary main_v28 main_v29 (Host.negf : (⟨S1600000x1, .f32⟩ : BufTy).Contents (Elt F) → (⟨S1600000x1, .f32⟩ : BufTy).Contents (Elt F)),
    unary main_v29 main_v30 (Host.exp : (⟨S1600000x1, .f32⟩ : BufTy).Contents (Elt F) → (⟨S1600000x1, .f32⟩ : BufTy).Contents (Elt F)),
    nullary main_cst_3 (constant S_ .f32 0x00000000#32),
    unary main_cst_3 main_v31 (broadcastInDim S100000x1 ![] bcast_S_S100000x1 : (⟨S_, .f32⟩ : BufTy).Contents (Elt F) → (⟨S100000x1, .f32⟩ : BufTy).Contents (Elt F)),
    unary main_v1 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    unary main_v30 main_v34 (broadcastInDim S1600000x64 ![0, 1] bcast_S1600000x1_S1600000x64_0_1 : (⟨S1600000x1, .f32⟩ : BufTy).Contents (Elt F) → (⟨S1600000x64, .f32⟩ : BufTy).Contents (Elt F)),
    binary main_v34 main_v22 main_v35 (mulf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x00000000#32),
    unary main_cst_4 main_v36 (broadcastInDim S100000x64 ![] bcast_S_S100000x64 : (⟨S_, .f32⟩ : BufTy).Contents (Elt F) → (⟨S100000x64, .f32⟩ : BufTy).Contents (Elt F)),
    unary main_v1 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_5 (constant S_ .f32 0x00000000#32),
    unary main_cst_5 main_v39 (broadcastInDim S100000x1 ![] bcast_S_S100000x1 : (⟨S_, .f32⟩ : BufTy).Contents (Elt F) → (⟨S100000x1, .f32⟩ : BufTy).Contents (Elt F)),
    binary main_v33 main_v39 main_v40 (cmpf .oeq : (⟨S100000x1, .f32⟩ : BufTy).Contents (Elt F) → (⟨S100000x1, .f32⟩ : BufTy).Contents (Elt F) → (⟨S100000x1, .i1⟩ : BufTy).Contents (Elt F)),
    nullary main_cst_6 (constant S_ .f32 0x2B8CBCCC#32),
    TRef.unary (.of main_cst_6) main_call2.v0 id,
    TRef.unary main_call2.v0 main_call2.v1 (broadcastInDim S100000x1 ![] bcast_S_S100000x1),
    TRef.ternary (.of main_v40) main_call2.v1 (.of main_v33) main_call2.v2 select,
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v38 main_v42 main_v43 (Host.divf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v43) main_call3.v0 main_call3.v1 maximumf ]

-- sixty-eight binds re-associated: the rewrite under the chain recurses once per statement
-- sixty-eight binds: unfolding both sides to one chain of steps goes one binder deep per operation
set_option maxRecDepth 8192 in
/-- The entry function is that straight line: with the outlined functions' definitions opened at their calls, both sides
    compute to the same chain of steps (sequencing re-associates by computation). -/
theorem main_eq (c : Dev nD) : main (F := F) c = seq ops := rfl

/-- No buffer of the signature is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., unary_bufs_sub .., binary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., unary_bufs_sub .., nullary_bufs_sub .., unary_bufs_sub ..,
    unary_bufs_sub .., ternary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub ..⟩

/-- A transport along an equation between a type and itself is the identity. -/
theorem cast_self {α : Sort _} (h : α = α) (a : α) : cast h a = a := by
  have e : cast h a = a := cast_eq h a
  exact e

attribute [local irreducible] Host.gather Host.scatterAdd Host.reduceAdd in
set_option maxRecDepth 8192 in
set_option maxHeartbeats 4000000 in
/-- The fold at the result buffer is the stage-by-stage term of the six arguments: each operation's result read at its own
    buffer is its function of its operands' contents and at any other buffer what was there; an outlined function's line
    moves its operands and result along the equation between a buffer's type and the value's, which at these buffers is
    an equation between a type and itself, so the transports drop; what is left is the term with its stages opened, up to
    the reshape written pointwise. The gather, the scatter-sums and the row sum are kept folded: the equation never looks
    inside them. -/
theorem out_eq (V : Valuation τ sig (Elt Ideal)) :
    after (ops (F := Ideal)) V (main_v44 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [cast_self]
  unfold Term.out Term.agg Term.msg Term.att Term.score Term.lin Term.scl Term.nrm Term.rows Term.rowIdx Term.src
  rfl

/-! No operation writes an argument's buffer, so the fold leaves each at what it held. -/

set_option maxRecDepth 8192 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in
theorem arg5_eq (V : Valuation τ sig (Elt Ideal)) :
    after (ops (F := Ideal)) V (main_arg5 : DevRef τ sig) = V (main_arg5 : DevRef τ sig) := by
  after_results_simp

/-- On the one device, from any memory with zero counters: every weakly fair execution of the reference terminates with
    the result buffer at `Term.out` of the arguments' launch contents and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v44).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.HandRun

end
-- ==== Proof.lean ====
/-
  The certificate of a graph-attention layer's kernel against its reference, over the extended reals.

  Both programs take the triplets (whose column 0 names each edge's source node), the node embeddings, and two
  affine maps. Per edge: the source node's embedding row is gathered and clipped to norm at most one, sent through the
  first affine map (`c`), then through the second to one score `s`; the edge's attention weight is
  `e = exp (-leaky s)` and its message `e · c`. Per node: the weights and the messages of its edges are summed, the
  message sum is divided by the weight sum (a tiny constant where that sum is zero), and the result is rectified.

  The reference does all of it on whole arrays. The kernel program gathers on the host, computes `(e | e · c)` in one
  grid call over 400 blocks of 4000 edges into one 1,600,000 × 65 array, slices the array apart again and aggregates
  on the host with the reference's own operations. At the ideal values a change of float format is the identity and a
  matrix-unit product, a host `dot_general`, a lane sum and a host sum are all the exact sum, so entry by entry the
  call's block is the reference's weight column and message array of the same edge (the one-edge arithmetic of
  `RowSpec`), the blocks tile the array, and the kernel program's result is the reference's stage-by-stage term of the
  same arguments. No law used needs the inputs finite: the two sides sum the same terms in the same grouping, and the
  one place their spellings differ (the rectifier's test at zero) agrees on every extended real.

  The two kernel frames are the generated frame certificates; the reference's frame is its run with the result dropped;
  the idealized kernel is the kernel's own text read at the ideal values, so the fourth conjunct is `True`.
-/
import proofs.«144017_j77704548319854_1_alg».proof.Defs
import proofs.«144017_j77704548319854_1_alg».proof.Proof.Gen.Kernel
import proofs.«144017_j77704548319854_1_alg».proof.Proof.Gen.Kernel.Skeleton
import proofs.«144017_j77704548319854_1_alg».proof.Proof.Gen.Kernel.Launch
import proofs.«144017_j77704548319854_1_alg».proof.Proof.Gen.Kernel.Points
import proofs.«144017_j77704548319854_1_alg».proof.Proof.Gen.Kernel.Frame
import proofs.«144017_j77704548319854_1_alg».proof.Proof.Gen.KernelIdeal
import proofs.«144017_j77704548319854_1_alg».proof.Proof.Gen.KernelIdeal.Skeleton
import proofs.«144017_j77704548319854_1_alg».proof.Proof.Gen.KernelIdeal.Launch
import proofs.«144017_j77704548319854_1_alg».proof.Proof.Gen.KernelIdeal.Points
import proofs.«144017_j77704548319854_1_alg».proof.Proof.Gen.KernelIdeal.Frame
import proofs.«144017_j77704548319854_1_alg».proof.Proof.Gen.ReferenceIdeal
import proofs.«144017_j77704548319854_1_alg».proof.Proof.Gen.Pre_finite_inputs
import proofs.«144017_j77704548319854_1_alg».proof.Proof.KerRun
import proofs.«144017_j77704548319854_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.HandRun.run m ρ)

/-- Both runs end at the reference's stage-by-stage term, of arguments that agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.HandRun.run m' ρ')
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
